-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S4096x4096 : Shape := ⟨2, ![4096, 4096]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel

variable [Facts]

def fn {F : FTy → Type} [FloatOps F] (main_arg0 : FVec F S4096x768 .f32) (main_arg1 : FVec F S4096x768 .f32) (main_arg2 : IVec S4096x4096 32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  main_v8
-- ==== Kernel.lean ====
abbrev S4096x768 : Shape := ⟨2, ![4096, 768]⟩
abbrev S4096x4096 : Shape := ⟨2, ![4096, 4096]⟩
abbrev S1x1 : Shape := ⟨2, ![1, 1]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S768x512 : Shape := ⟨2, ![768, 512]⟩
abbrev S1x512 : Shape := ⟨2, ![1, 512]⟩
abbrev S1x512x512 : Shape := ⟨3, ![1, 512, 512]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 8
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x4096, .i32⟩
  | .hbm, ⟨3, _⟩ => ⟨S1x1, .f32⟩
  | .hbm, ⟨4, _⟩ => ⟨S_, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x512, .i32⟩
  | .local _ .vmem, ⟨5, _⟩ => ⟨S512x512, .i32⟩
  | .local _ .vmem, ⟨6, _⟩ => ⟨S1x1, .f32⟩
  | .local _ .vmem, ⟨7, _⟩ => ⟨S1x1, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v63 : BitVec 1 := Scalar.cmpi .eq arg0 c7_i32
  let arg1 : BitVec 32 := BitVec.ofNat 32 (i 1).val
  let c7_i32_23 : BitVec 32 := 7#32
  let v64 : BitVec 1 := Scalar.cmpi .eq arg1 c7_i32_23
  let v65 : BitVec 1 := Scalar.andi v63 v64
  let v66 : BitVec 32 := Scalar.extui v65
  let c0_i32_24 : BitVec 32 := 0#32
  let v67 : BitVec 1 := Scalar.cmpi .ne v66 c0_i32_24
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x768_S512x768_0_0 : ∀ a, (![0, 0] : Fin 2 → Nat) a + S512x768.size a ≤ S512x768.size a
  h_S512x768 : 0 < S512x768.numel
  inb_S512x512_S512x512_0_0 : ∀ a, (![0, 0] : Fin 2 → Nat) a + S512x512.size a ≤ S512x512.size a
  h_S512x512 : 0 < S512x512.numel
  reduces_S512x768_S512 : S512x768.Reduces [1] S512
  shapeCasts_S512_S512x1 : S512.ShapeCasts S512x1
  bitsLt_bf16_f32 : FTy.bits .bf16 < FTy.bits .f32
  transposes_S512x768_p1_0_S768x512 : S512x768.Transposes [1, 0] S768x512
  transposes_S512x1_p1_0_S1x512 : S512x1.Transposes [1, 0] S1x512
  broadcasts_S512x1_S512x512 : S512x1.Broadcasts S512x512
  broadcasts_S1x512_S512x512 : S1x512.Broadcasts S512x512
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S512x768_S768x512_S512x512_1_0_0_1_n_n_wf : DotDims.WF S512x768 S768x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S4096x768.size a
  hwx0_1 : ∀ i : grid0.Coords, EltTy.bits .f32 = 32 ∨ (Rect.block (s := S4096x768) S512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .i32 = 32 ∨ (Rect.block (s := S4096x4096) S512x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

abbrev win0_0 : Pipeline.Window sig grid0 :=
  Pipeline.Window.ofSpec (Memref.whole main_arg0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x768 : Shape := ⟨2, ![4096, 768]⟩
abbrev S4096x4096 : Shape := ⟨2, ![4096, 4096]⟩
abbrev S_ : Shape := ⟨0, ![]⟩
abbrev S4096 : Shape := ⟨1, ![4096]⟩
abbrev S768x4096 : Shape := ⟨2, ![768, 4096]⟩
abbrev S4096x1 : Shape := ⟨2, ![4096, 1]⟩
abbrev S1x4096 : Shape := ⟨2, ![1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x4096, .i32⟩
  | .hbm, ⟨3, _⟩ => ⟨S4096x768, .f32⟩
  | .hbm, ⟨4, _⟩ => ⟨S_, .f32⟩
  | .hbm, ⟨5, _⟩ => ⟨S4096, .f32⟩
  | .hbm, ⟨6, _⟩ => ⟨S4096x768, .f32⟩
  | .hbm, ⟨7, _⟩ => ⟨S_, .f32⟩
  | .hbm, ⟨8, _⟩ => ⟨S4096, .f32⟩
  | .hbm, ⟨9, _⟩ => ⟨S768x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x1, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  reducesTo_S4096x768_S4096_d1 : S4096x768.ReducesTo [1] S4096
  h_S_ : 0 < S_.numel
  transposes_S4096x768_S768x4096_1_0 : S4096x768.Transposes [1, 0] S768x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x768_S768x4096_S4096x4096_1_0_0_1_n_n_wf : DotDims.WF S4096x768 S768x4096 S4096x4096 [1] [0] [0] [1] [] []

variable [Facts₀]

def dot_S4096x768_S768x4096_S4096x4096_1_0_0_1_n_n : DotDims S4096x768 S768x4096 S4096x4096 where
  lhsContracting := [1]
  rhsContracting := [0]
  lhsNonContracting := [0]
  rhsNonContracting := [1]
  lhsBatch := []
  rhsBatch := []
  wf := dot_S4096x768_S768x4096_S4096x4096_1_0_0_1_n_n_wf

class Facts : Prop extends Facts₀ where

variable [Facts]
-- ==== Proof.LibBlockSum.lean ====
/-
  Sums over an axis cut into equal blocks, on any commutative additive monoid, generic in the extents.

  An axis of n = a * b positions is a blocks of b positions each: position p of block i is position b * i + p of the
  axis, and every position is of that form exactly once. So the sum of a function over the axis is the sum over the
  blocks of its sums inside each block; and for a function of two such axes, the sum over all pairs of positions is the
  sum over the pairs of blocks (the tiles) of the sums inside each tile.
-/
import Mathlib.Algebra.BigOperators.Fin
import Mathlib.Logic.Equiv.Fin.Basic

open scoped BigOperators

namespace Cert.Lib.BlockSum

/-- Position p of block i of an axis of n = a * b positions cut into a blocks of b. -/
def blockPos (a b n : ℕ) (h : a * b = n) : Fin a × Fin b ≃ Fin n :=
  finProdFinEquiv.trans (finCongr h)

/-- It is position b * i + p of the axis. -/
theorem blockPos_val (a b n : ℕ) (h : a * b = n) (i : Fin a) (p : Fin b) :
    (blockPos a b n h (i, p)).val = p.val + b * i.val := rfl

/-- A sum over an axis is the sum over its blocks of the sums inside each block. -/
theorem sum_blocks {M : Type*} [AddCommMonoid M] (a b n : ℕ) (h : a * b = n) (f : Fin n → M) :
    ∑ i : Fin a, ∑ p : Fin b, f (blockPos a b n h (i, p)) = ∑ P : Fin n, f P := by
  rw [← Fintype.sum_prod_type' (fun i p => f (blockPos a b n h (i, p)))]
  exact Equiv.sum_comp (blockPos a b n h) f

/-- A sum over all pairs of positions of two axes is the sum over the tiles (a block of the first axis against a block
    of the second) of the sums over each tile's pairs. -/
theorem sum_tiles {M : Type*} [AddCommMonoid M] (a b n a' b' n' : ℕ) (h : a * b = n) (h' : a' * b' = n')
    (L : Fin n → Fin n' → M) :
    ∑ i : Fin a, ∑ j : Fin a', ∑ p : Fin b, ∑ q : Fin b', L (blockPos a b n h (i, p)) (blockPos a' b' n' h' (j, q))
      = ∑ P : Fin n, ∑ Q : Fin n', L P Q := by
  rw [← sum_blocks a b n h (fun P => ∑ Q : Fin n', L P Q)]
  refine Finset.sum_congr rfl fun i _ => ?_
  rw [Finset.sum_comm]
  refine Finset.sum_congr rfl fun p _ => ?_
  rw [← sum_blocks a' b' n' h' (fun Q => L (blockPos a b n h (i, p)) Q)]

end Cert.Lib.BlockSum
-- ==== Proof.PairLoss.lean ====
/-
  The contrastive pair loss as a function on the extended reals, and the law that regroups its sum over all pairs.

  For two embedding rows a, b of one width and a label g, the squared distance of a - b + eps is expanded as
      sq = ((|a|^2 + |b|^2) - 2 (a . b)) + c1 (sum a - sum b) + c2,
  with 2, c1 = f32(2e-6) and c2 = f32(7.68e-10) the single-precision words both programs print; the distance is
  d = sqrt (max sq 0), the hinge h = max (2 - d) 0, and the loss of the pair ((1 - g) d) d + (g h) h.

  The mean over all 4096 x 4096 pairs is their sum divided by 2^24. Summation on the extended reals is commutative and
  associative, so the sum may be taken tile by tile: the 64 tiles of 512 x 512 pairs, tile t holding the row block
  t / 8 against the column block t % 8, partition the pairs.
-/
import proofs.«121585_j69415261438629_1_alg».proof.Proof.LibBlockSum
import Idealize.ShloMosaic.PureOps.Ideal.Laws
import Idealize.ShloMosaic.Lib.ValueIdx

noncomputable section

open scoped BigOperators

namespace Cert.Contrastive

open Idealize.ShloMosaic Idealize.ShloMosaic.ValueIdx Cert.Lib.BlockSum

/-! ## One pair -/

/-- The expanded squared distance of two rows, from their five row statistics. -/
def sqOf (sa sb dot ra rb : EReal) : EReal :=
  ((sa + sb) - Ideal.ofBits .f32 0x40000000#32 * dot) + Ideal.ofBits .f32 0x360637BD#32 * (ra - rb)
    + Ideal.ofBits .f32 0x30531B32#32

/-- The expanded squared distance of two rows. -/
def sqDist {D : ℕ} (a b : Fin D → EReal) : EReal :=
  sqOf (∑ k, a k * a k) (∑ k, b k * b k) (∑ k, a k * b k) (∑ k, a k) (∑ k, b k)

/-- The loss of a pair from its label and its squared distance: similar pairs (label 0) pay the squared distance,
    dissimilar ones (label 1) the squared hinge of the distance against the margin 2. -/
def lossOf (g sq : EReal) : EReal :=
  ((Ideal.ofBits .f32 0x3F800000#32 - g) * Ideal.sqrt (max sq (Ideal.ofBits .f32 0x00000000#32)))
      * Ideal.sqrt (max sq (Ideal.ofBits .f32 0x00000000#32))
    + (g * max (Ideal.ofBits .f32 0x40000000#32 - Ideal.sqrt (max sq (Ideal.ofBits .f32 0x00000000#32))) (Ideal.ofBits .f32 0x00000000#32))
      * max (Ideal.ofBits .f32 0x40000000#32 - Ideal.sqrt (max sq (Ideal.ofBits .f32 0x00000000#32))) (Ideal.ofBits .f32 0x00000000#32)

/-- The loss of the pair (row P of the images, row Q of the texts) under its label. -/
def pairLoss (A B : (⟨2, ![4096, 768]⟩ : Shape).Idx → EReal) (G : (⟨2, ![4096, 4096]⟩ : Shape).Idx → BitVec 32)
    (P Q : Fin 4096) : EReal :=
  lossOf (((G (ix2 P Q)).toInt : ℝ) : EReal) (sqDist (fun k => A (ix2 P k)) (fun k => B (ix2 Q k)))

/-- The mean loss over all pairs: their sum over 2^24, the single-precision word 0x4B800000. -/
def meanLoss (A B : (⟨2, ![4096, 768]⟩ : Shape).Idx → EReal) (G : (⟨2, ![4096, 4096]⟩ : Shape).Idx → BitVec 32) : EReal :=
  Ideal.div (∑ P : Fin 4096, ∑ Q : Fin 4096, pairLoss A B G P Q) (Ideal.ofBits .f32 0x4B800000#32)

/-! ## The 64 tiles -/

/-- The row of the pair matrix that position p of tile t's row block is. -/
def tileRow (t : Fin 64) (p : Fin 512) : Fin 4096 := ⟨512 * (t.val / 8) + p.val, by have := t.isLt; have := p.isLt; omega⟩
/-- The column of the pair matrix that position q of tile t's column block is. -/
def tileCol (t : Fin 64) (q : Fin 512) : Fin 4096 := ⟨512 * (t.val % 8) + q.val, by have := t.isLt; have := q.isLt; omega⟩

theorem tileRow_blockPos (i j : Fin 8) (p : Fin 512) :
    tileRow (blockPos 8 8 64 rfl (i, j)) p = blockPos 8 512 4096 rfl (i, p) := by
  apply Fin.ext
  show 512 * ((j.val + 8 * i.val) / 8) + p.val = p.val + 512 * i.val
  have := j.isLt
  omega

theorem tileCol_blockPos (i j : Fin 8) (q : Fin 512) :
    tileCol (blockPos 8 8 64 rfl (i, j)) q = blockPos 8 512 4096 rfl (j, q) := by
  apply Fin.ext
  show 512 * ((j.val + 8 * i.val) % 8) + q.val = q.val + 512 * j.val
  have := j.isLt
  omega

/-- THE REGROUPING: a sum over all pairs is the sum over the 64 tiles of the sums over each tile's pairs. -/
theorem sum_grid_tiles {M : Type*} [AddCommMonoid M] (L : Fin 4096 → Fin 4096 → M) :
    ∑ t : Fin 64, ∑ p : Fin 512, ∑ q : Fin 512, L (tileRow t p) (tileCol t q) = ∑ P : Fin 4096, ∑ Q : Fin 4096, L P Q := by
  rw [← sum_blocks 8 8 64 rfl (fun t => ∑ p : Fin 512, ∑ q : Fin 512, L (tileRow t p) (tileCol t q)),
    ← Cert.Lib.BlockSum.sum_tiles 8 512 4096 8 512 4096 rfl rfl L]
  refine Finset.sum_congr rfl fun i _ => Finset.sum_congr rfl fun j _ => Finset.sum_congr rfl fun p _ =>
    Finset.sum_congr rfl fun q _ => ?_
  rw [tileRow_blockPos, tileCol_blockPos]

/-- The loss summed over the pairs of tile s, the tiles numbered in the order the grid visits them (nothing beyond the
    64th). -/
def tileSum (A B : (⟨2, ![4096, 768]⟩ : Shape).Idx → EReal) (G : (⟨2, ![4096, 4096]⟩ : Shape).Idx → BitVec 32) (s : ℕ) : EReal :=
  if h : s < 64 then ∑ p : Fin 512, ∑ q : Fin 512, pairLoss A B G (tileRow ⟨s, h⟩ p) (tileCol ⟨s, h⟩ q) else 0

/-- The 64 tile sums add up to the sum over all pairs. -/
theorem sum_range_tileSum (A B : (⟨2, ![4096, 768]⟩ : Shape).Idx → EReal) (G : (⟨2, ![4096, 4096]⟩ : Shape).Idx → BitVec 32) :
    ∑ s ∈ Finset.range 64, tileSum A B G s = ∑ P : Fin 4096, ∑ Q : Fin 4096, pairLoss A B G P Q := by
  rw [Finset.sum_range]
  refine Eq.trans ?_ (sum_grid_tiles (pairLoss A B G))
  exact Finset.sum_congr rfl fun t _ => dif_pos t.isLt

end Cert.Contrastive

end
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.LibKeepdims.lean ====
/-
  Layout operations of a `keepdims=True` row reduction, read at an index given by coordinates, generic in the extents:
  a vector made a one-column matrix by a shape cast ([a] → [a, 1]); a one-column matrix broadcast along its rows
  ([a, 1] → [a, b]); and, on the extended reals, a float lane sum over axis 1 of a matrix read at a row as the sum over
  that row's entries. Each is the library's general lemma (`shapeCast_apply`, `broadcastTo_apply`,
  `Ideal.multiReduction_add_single`) with both indices written `ix1` / `ix2` and the coordinate arithmetic done.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector cast to a one-column matrix reads, at (p, z), the vector at p: both have row-major position p. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A one-column matrix broadcast along its rows reads, at (p, q), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- On the extended reals a float lane sum over axis 1 of a matrix is, at row p, the sum over k of the entry (p, k).
    The accumulator's hypothesis is typed as a printed payload's proof is (the zero word equal to itself). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

end Cert.Lib.Keepdims
-- ==== Proof.LibRowProducts.lean ====
/-
  Row products and row sums as a kernel spells them, each read at one entry on the extended reals and generic in the
  extents.

  * A matrix product into the zero accumulator whose right operand is an [N, K] matrix transposed to [K, N]: entry (p, q)
    is the product of row p of the left matrix with row q of the untransposed right one, summed.
  * The sum of each row of an [a, n] matrix (a float lane sum over axis 1), kept as a one-column matrix [a, 1] and then
    - transposed to the one-row matrix [1, a]: entry (0, q) is the sum of row q;
    - broadcast along the rows to [a, b]: entry (p, q) is the sum of row p.
-/
import Idealize.ShloMosaic.Lib.ValueLayout
import proofs.«121585_j69415261438629_1_alg».proof.Proof.LibPlainDot
import proofs.«121585_j69415261438629_1_alg».proof.Proof.LibKeepdims

noncomputable section

namespace Cert.Lib.RowProducts

open Idealize.ShloMosaic Idealize.ShloMosaic.ValueIdx

/-- Rows against rows: a matrix product into the zero accumulator with the right operand an [N, K] matrix transposed,
    at entry (p, q), is the sum over k of a (p, k) * b (q, k). -/
theorem matmul_transposed_rows_apply {M K N : ℕ} {φ₁ φ₂ : FTy} (prec : Option ContractPrecision)
    (a : FVec Ideal ⟨2, ![M, K]⟩ φ₁) (b : FVec Ideal ⟨2, ![N, K]⟩ φ₂)
    (h : (⟨2, ![N, K]⟩ : Shape).Transposes [1, 0] ⟨2, ![K, N]⟩) (p : Fin M) (q : Fin N) :
    FloatOps.matmul (DotDims.plain M K N) prec a (transpose ⟨2, ![K, N]⟩ [1, 0] b h)
        (constant ⟨2, ![M, N]⟩ .f32 0x00000000#32) (ix2 p q)
      = ∑ k : Fin K, a (ix2 p k) * b (ix2 q k) :=
  (Cert.Lib.PlainDot.matmul_zero_apply M K N prec a _ p q).trans
    (Finset.sum_congr rfl fun k _ => congrArg (a (ix2 p k) * ·) (transpose_ix2_apply b h k q))

/-- The row sums of a matrix, kept as a column and transposed to a row: entry (z, q) is the sum of row q. -/
theorem rowSum_asRow_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (hc : (⟨1, ![a]⟩ : Shape).ShapeCasts ⟨2, ![a, 1]⟩) (ht : (⟨2, ![a, 1]⟩ : Shape).Transposes [1, 0] ⟨2, ![1, a]⟩)
    (z : Fin 1) (q : Fin a) :
    transpose ⟨2, ![1, a]⟩ [1, 0] (shapeCast ⟨2, ![a, 1]⟩ (multiReduction .add [1] ⟨1, ![a]⟩ src acc h hφ hacc) hc) ht (ix2 z q)
      = ∑ k : Fin n, src (ix2 q k) :=
  (transpose_ix2_apply _ ht z q).trans
    ((Cert.Lib.Keepdims.shapeCast_a_a1_apply _ hc q z).trans (Cert.Lib.Keepdims.rowSum_apply src acc h hφ hacc q))

/-- The row sums of a matrix, kept as a column and broadcast along the rows: entry (p, q) is the sum of row p. -/
theorem rowSum_asColumn_apply {a b n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (multiReduction .add [1] ⟨1, ![a]⟩ src acc h hφ hacc) hc) hb (ix2 p q)
      = ∑ k : Fin n, src (ix2 p k) :=
  (Cert.Lib.Keepdims.broadcastTo_a1_ab_apply _ hb p q).trans
    ((Cert.Lib.Keepdims.shapeCast_a_a1_apply _ hc p 0).trans (Cert.Lib.Keepdims.rowSum_apply src acc h hφ hacc p))

end Cert.Lib.RowProducts

end
-- ==== Proof.TileLoss.lean ====
/-
  The kernel body's arithmetic on one tile, read at one entry on the extended reals.

  A tile holds a block of 512 image rows, a block of 512 text rows and the 512 x 512 block of labels between them.
  Its squared-distance term at (p, q) is the expanded squared distance of image row p and text row q of the blocks:
  the row statistics are lane sums kept as columns and broadcast, or transposed to a row first, and the inner products
  a matrix product against the transposed text block (a change of float format is the identity on the extended reals).
  The accumulator after the tile is what it held plus the sum of the pair losses over the tile's 512 x 512 entries,
  and the mean is the accumulator over 2^24.
-/
import proofs.«121585_j69415261438629_1_alg».proof.Proof.Gen.KernelIdeal.Skeleton
import proofs.«121585_j69415261438629_1_alg».proof.Proof.PairLoss
import proofs.«121585_j69415261438629_1_alg».proof.Proof.LibRowProducts
import Idealize.ShloMosaic.Lib.Pipeline.Value
import Idealize.ShloMosaic.Lib.ValueLayout

noncomputable section

open scoped BigOperators

namespace Cert.Contrastive.Tile

open Idealize.ShloMosaic Idealize.ShloMosaic.ValueIdx Cert.KernelIdeal Cert.KernelIdeal.Gen Cert.Contrastive

/-- The printed dimension numbers of the tile's matrix product are those of a plain [512, 768] by [768, 512] product. -/
theorem dot_plain : dot_S512x768_S768x512_S512x512_1_0_0_1_n_n = DotDims.plain 512 768 512 := rfl

set_option backward.isDefEq.respectTransparency.types false in
/-- The tile's squared-distance term at (p, q) is the expanded squared distance of row p of the image block and row q
    of the text block. -/
theorem sq_apply (x0 x1 : FVec Ideal S512x768 .f32) (p q : Fin 512) :
    k0_pay5 (F := Ideal) x0 x1 (ix2 p q) = sqDist (fun k => x0 (ix2 p k)) (fun k => x1 (ix2 q k)) := by
  unfold k0_pay5 sqDist sqOf
  simp only [addf_apply, subf_apply, mulf_apply, broadcast_apply]
  rw [Cert.Lib.RowProducts.rowSum_asColumn_apply, Cert.Lib.RowProducts.rowSum_asColumn_apply,
    broadcastTo_1b_ab_apply, broadcastTo_1b_ab_apply,
    Cert.Lib.RowProducts.rowSum_asRow_apply, Cert.Lib.RowProducts.rowSum_asRow_apply]
  simp only [matmul]
  rw [dot_plain, Cert.Lib.RowProducts.matmul_transposed_rows_apply]
  rfl

/-- The tile's label term at an entry is the label word read as a signed integer. -/
theorem label_apply (x2 : IVec S512x512 32) (y : S512x512.Idx) :
    k0_pay4 (F := Ideal) x2 y = (((x2 y).toInt : ℝ) : EReal) := rfl

/-- The accumulator after a tile is what it held plus the sum, over the tile's 512 x 512 entries, of the pair loss of
    the entry's label and squared distance: the lane sum over both axes of the tile is the total sum, and a change of
    shape only renames the entries. -/
theorem acc_apply (v8 v38 : FVec Ideal S512x512 .f32) (v58 : FVec Ideal S1x1 .f32) (j : S1x1.Idx) :
    k0_pay1 (F := Ideal) v8 v38 (Scalar.ofBits .f32 0x00000000#32) v58 j
      = v58 j + ∑ y : S512x512.Idx, lossOf (v8 y) (v38 y) := by
  unfold k0_pay1
  simp only [shapeCast_self, addf_apply, broadcast_apply]
  refine congrArg (v58 j + ·) ?_
  refine (Ideal.multiReduction_add_total _ 0x00000000#32 reduces_S1x512x512_S1 (fun b => by fin_cases b; rfl) (.inl rfl) rfl _).trans ?_
  refine (Equiv.sum_comp (Shape.reshapeEquiv shapeCasts_S512x512_S1x512x512) _).trans ?_
  exact Finset.sum_congr rfl fun y _ => rfl

/-- The mean is the accumulator over 2^24. -/
theorem mean_apply (v68 : FVec Ideal S1x1 .f32) (j : S1x1.Idx) :
    k0_pay2 (F := Ideal) v68 j = Ideal.div (v68 j) (Ideal.ofBits .f32 0x4B800000#32) := rfl

/-- The accumulator is reset to zero. -/
theorem reset_apply (j : S1x1.Idx) : k0_pay3 (F := Ideal) j = 0 := by
  unfold k0_pay3
  rw [shapeCast_self]
  exact Ideal.ofBits_zero_f32

end Cert.Contrastive.Tile

end
-- ==== Proof.TilePieces.lean ====
/-
  What one run of the kernel body leaves behind, as values of the blocks it was given.

  The body adds the tile's loss sum to a 1 x 1 accumulator it carries from point to point. At the first grid point it
  first resets the accumulator to zero and reads the zero back; at every other point it reads what the point before
  left. At the last point it also stores the accumulator over 2^24 into the 1 x 1 result block. Each store covers its
  whole buffer, so what a buffer ends with is the last store's value, every load having read a whole buffer.
-/
import proofs.«121585_j69415261438629_1_alg».proof.Proof.Gen.KernelIdeal.Frame
import Idealize.ShloMosaic.Lib.Pipeline.Value
import Idealize.ShloMosaic.Lib.Tactic

noncomputable section

namespace Cert.Contrastive.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- The accumulator after a tile: the tile's update of what it held, over the tile's label and squared-distance terms. -/
abbrev accAfter (x0 x1 : Vec F S512x768 .f32) (x2 : Vec F S512x512 .i32) (acc : Vec F S1x1 .f32) : Vec F S1x1 .f32 :=
  k0_pay1 (k0_pay4 x2) (k0_pay5 x0 x1) (Scalar.ofBits .f32 0x00000000#32) acc

/-- A point that is neither first nor last leaves the accumulator at the tile's update of what the point before left. -/
theorem scratch_B (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S512x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S512x768 .f32) (x1 : Vec F S512x768 .f32) (x2 : Vec F S512x512 .i32) (xs0 : Vec F S1x1 .f32) :
    sout0_B_0 c i arg2 harg2 arg3 harg3 arg4 harg4 arg5 harg5 arg6 harg6 hc0 hc1 x0 x1 x2 xs0 = accAfter x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S512x768) hz, View.ld_unit_zero (S := S512x512) hz, View.ld_unit_zero (S := S1x1) hz]

/-- The last point leaves the accumulator likewise. -/
theorem scratch_C (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S512x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S512x768 .f32) (x1 : Vec F S512x768 .f32) (x2 : Vec F S512x512 .i32) (xs0 : Vec F S1x1 .f32) :
    sout0_C_0 c i arg2 harg2 arg3 harg3 arg4 harg4 arg5 harg5 arg6 harg6 hc0 hc1 x0 x1 x2 xs0 = accAfter x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S512x768) hz, View.ld_unit_zero (S := S512x512) hz, View.ld_unit_zero (S := S1x1) hz]

/-- And it stores, into the result block, the accumulator it has just updated, over 2^24. -/
theorem result_C (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S512x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S512x768 .f32) (x1 : Vec F S512x768 .f32) (x2 : Vec F S512x512 .i32) (xs0 : Vec F S1x1 .f32) :
    out0_C_3 c i arg2 harg2 arg3 harg3 arg4 harg4 arg5 harg5 arg6 harg6 hc0 hc1 x0 x1 x2 xs0 = k0_pay2 (accAfter x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S512x768) hz, View.ld_unit_zero (S := S512x512) hz, View.ld_unit_zero (S := S1x1) hz,
    View.readCov_unit_zero (S := S1x1) _ hz]

/-- The first point resets the accumulator to zero, reads the zero back and leaves the tile's update of it. -/
theorem scratch_A (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S512x512 .i32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S512x768 .f32) (x1 : Vec F S512x768 .f32) (x2 : Vec F S512x512 .i32) :
    sout0_A_0 c i arg2 harg2 arg3 harg3 arg4 harg4 arg5 harg5 arg6 harg6 hc0 hc1 x0 x1 x2 = accAfter x0 x1 x2 (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread,
    View.ld_unit_zero (S := S512x768) hz, View.ld_unit_zero (S := S512x512) hz, View.ld_unit_zero (S := S1x1) hz]

end Cert.Contrastive.Pieces

end
-- ==== Proof.RunningSum.lean ====
/-
  The accumulator along the grid, on the extended reals.

  The grid visits the 64 tiles in order, tile t pairing image-row block t / 8 with text-row block t % 8. A tile's
  blocks are read off the arrays at the rows 512 (t / 8) + p and 512 (t % 8) + q, so the tile's sum of pair losses over
  its entries is the sum of the arrays' pair losses over the tile's pairs. The first point leaves 0 plus its tile's
  sum in the accumulator and every later point adds its own, so after point n the accumulator holds the sum of the
  tile sums of points 0 to n; the last point stores that over 2^24 as the result.
-/
import proofs.«121585_j69415261438629_1_alg».proof.Proof.TileLoss
import proofs.«121585_j69415261438629_1_alg».proof.Proof.TilePieces

noncomputable section

open scoped BigOperators

namespace Cert.Contrastive.Grid

open Idealize.ShloMosaic Idealize.ShloMosaic.TcCoe Idealize.ShloMosaic.ValueIdx Idealize.SL.Sem
open Cert.KernelIdeal Cert.KernelIdeal.Gen Cert.Contrastive Cert.Contrastive.Tile Cert.Contrastive.Pieces

variable (m : (ℓ : Loc nD τ sig) → Buf (Elt Ideal) ℓ)

/-! ## The arrays and a tile's blocks, at their literal types -/

abbrev imgArr (c : Dev nD) : FVec Ideal S4096x768 .f32 := V m c main_arg0
abbrev txtArr (c : Dev nD) : FVec Ideal S4096x768 .f32 := V m c main_arg1
abbrev labArr (c : Dev nD) : IVec S4096x4096 32 := V m c main_arg2
abbrev imgBlk (c : Dev nD) (t : Fin cfg0.N) : FVec Ideal S512x768 .f32 := iblk m c 0 t
abbrev txtBlk (c : Dev nD) (t : Fin cfg0.N) : FVec Ideal S512x768 .f32 := iblk m c 1 t
abbrev labBlk (c : Dev nD) (t : Fin cfg0.N) : IVec S512x512 32 := iblk m c 2 t

/-- Where the index maps put tile t's blocks: image rows from block t / 8, text rows from block t % 8, labels from both. -/
theorem img_index : ∀ t : Fin cfg0.N, win0_0.index t 0 = t.val / 8 ∧ win0_0.index t 1 = 0 :=
  (by decide +kernel : ∀ t : Fin grid0.N, win0_0.index t 0 = t.val / 8 ∧ win0_0.index t 1 = 0)
theorem txt_index : ∀ t : Fin cfg0.N, win0_1.index t 0 = t.val % 8 ∧ win0_1.index t 1 = 0 :=
  (by decide +kernel : ∀ t : Fin grid0.N, win0_1.index t 0 = t.val % 8 ∧ win0_1.index t 1 = 0)
theorem lab_index : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

/-- Row p of tile t's image block is row 512 (t / 8) + p of the images. -/
theorem imgBlk_apply (c : Dev nD) (t : Fin cfg0.N) (ht : t.val < 64) (p : Fin 512) (k : Fin 768) :
    imgBlk m c t (ix2 p k) = imgArr m c (ix2 (tileRow ⟨t.val, ht⟩ p) k) := by
  show iblk m c 0 t (ix2 p k) = V m c main_arg0 _
  unfold iblk
  rw [View.read_apply]
  show V m c main_arg0 _ = V m c main_arg0 _
  refine congrArg (V m c main_arg0) (funext fun a => Fin.ext ?_)
  match a with
  | ⟨0, _⟩ => show win0_0.index t 0 * 512 + 1 * p.val = 512 * (t.val / 8) + p.val; rw [(img_index t).1]; omega
  | ⟨1, _⟩ => show win0_0.index t 1 * 768 + 1 * k.val = k.val; rw [(img_index t).2]; omega

/-- Row q of tile t's text block is row 512 (t % 8) + q of the texts. -/
theorem txtBlk_apply (c : Dev nD) (t : Fin cfg0.N) (ht : t.val < 64) (q : Fin 512) (k : Fin 768) :
    txtBlk m c t (ix2 q k) = txtArr m c (ix2 (tileCol ⟨t.val, ht⟩ q) k) := by
  show iblk m c 1 t (ix2 q k) = V m c main_arg1 _
  unfold iblk
  rw [View.read_apply]
  show V m c main_arg1 _ = V m c main_arg1 _
  refine congrArg (V m c main_arg1) (funext fun a => Fin.ext ?_)
  match a with
  | ⟨0, _⟩ => show win0_1.index t 0 * 512 + 1 * q.val = 512 * (t.val % 8) + q.val; rw [(txt_index t).1]; omega
  | ⟨1, _⟩ => show win0_1.index t 1 * 768 + 1 * k.val = k.val; rw [(txt_index t).2]; omega

/-- Entry (p, q) of tile t's label block is the label of that pair of rows. -/
theorem labBlk_apply (c : Dev nD) (t : Fin cfg0.N) (ht : t.val < 64) (p q : Fin 512) :
    labBlk m c t (ix2 p q) = labArr m c (ix2 (tileRow ⟨t.val, ht⟩ p) (tileCol ⟨t.val, ht⟩ q)) := by
  show iblk m c 2 t (ix2 p q) = V m c main_arg2 _
  unfold iblk
  rw [View.read_apply]
  show V m c main_arg2 _ = V m c main_arg2 _
  refine congrArg (V m c main_arg2) (funext fun a => Fin.ext ?_)
  match a with
  | ⟨0, _⟩ => show win0_2.index t 0 * 512 + 1 * p.val = 512 * (t.val / 8) + p.val; rw [(lab_index t).1]; omega
  | ⟨1, _⟩ => show win0_2.index t 1 * 512 + 1 * q.val = 512 * (t.val % 8) + q.val; rw [(lab_index t).2]; omega

/-! ## One tile -/

/-- The sum of the pair losses over the entries of tile t's blocks is the arrays' tile sum. -/
theorem tile_eq (c : Dev nD) (t : Fin cfg0.N) :
    ∑ y : S512x512.Idx, lossOf (k0_pay4 (F := Ideal) (labBlk m c t) y) (k0_pay5 (F := Ideal) (imgBlk m c t) (txtBlk m c t) y)
      = tileSum (imgArr m c) (txtArr m c) (labArr m c) t.val := by
  have ht : t.val < 64 := lt_of_lt_of_eq t.isLt (show cfg0.N = 64 from N_0)
  unfold tileSum
  rw [dif_pos ht, sum_idx2]
  refine Finset.sum_congr rfl fun p _ => Finset.sum_congr rfl fun q _ => ?_
  rw [label_apply, sq_apply, labBlk_apply m c t ht p q]
  unfold pairLoss
  refine congrArg (lossOf _) (congrArg₂ sqDist (funext fun k => imgBlk_apply m c t ht p k) (funext fun k => txtBlk_apply m c t ht q k))

/-- What a tile's update makes of an accumulator: it adds the arrays' tile sum. -/
theorem accAfter_apply (c : Dev nD) (t : Fin cfg0.N) (acc : FVec Ideal S1x1 .f32) (j : S1x1.Idx) :
    accAfter (F := Ideal) (imgBlk m c t) (txtBlk m c t) (labBlk m c t) acc j = acc j + tileSum (imgArr m c) (txtArr m c) (labArr m c) t.val :=
  (acc_apply _ _ acc j).trans (congrArg (acc j + ·) (tile_eq m c t))

/-! ## One point, by the case it is in -/

/-- The first point: the accumulator ends at its tile's sum (added to the zero it was reset to). -/
theorem step_first (c : Dev nD) (t : Fin cfg0.N) (h0 : t.val % 64 = 0) (h1 : ¬t.val % 64 = 63) (j : S1x1.Idx) :
    (outsAt0 m c t.val t.isLt).2 j = tileSum (imgArr m c) (txtArr m c) (labArr m c) t.val := by
  rw [outsAt0_A m c t h0 h1]
  dsimp only
  refine (congrFun (scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (imgBlk m c t) (txtBlk m c t) (labBlk m c t)) j).trans ?_
  rw [accAfter_apply, reset_apply, zero_add]

/-- A point that is neither first nor last adds its tile's sum to what the point before left. -/
theorem step_middle (c : Dev nD) (t : Fin cfg0.N) (h0 : ¬t.val % 64 = 0) (h1 : ¬t.val % 64 = 63) (j : S1x1.Idx) :
    (outsAt0 m c t.val t.isLt).2 j = (outsAt0 m c (t.val - 1) (Nat.lt_of_le_of_lt (Nat.sub_le _ _) t.isLt)).2 j + tileSum (imgArr m c) (txtArr m c) (labArr m c) t.val := by
  rw [outsAt0_B m c t h0 h1]
  dsimp only
  refine (congrFun (scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (imgBlk m c t) (txtBlk m c t) (labBlk m c t) (outsAt0 m c (t.val - 1) (Nat.lt_of_le_of_lt (Nat.sub_le _ _) t.isLt)).2) j).trans ?_
  exact accAfter_apply m c t _ j

/-- The last point does the same, -/
theorem step_last (c : Dev nD) (t : Fin cfg0.N) (h0 : ¬t.val % 64 = 0) (h1 : t.val % 64 = 63) (j : S1x1.Idx) :
    (outsAt0 m c t.val t.isLt).2 j = (outsAt0 m c (t.val - 1) (Nat.lt_of_le_of_lt (Nat.sub_le _ _) t.isLt)).2 j + tileSum (imgArr m c) (txtArr m c) (labArr m c) t.val := by
  rw [outsAt0_C m c t h0 h1]
  dsimp only
  refine (congrFun (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (imgBlk m c t) (txtBlk m c t) (labBlk m c t) (outsAt0 m c (t.val - 1) (Nat.lt_of_le_of_lt (Nat.sub_le _ _) t.isLt)).2) j).trans ?_
  exact accAfter_apply m c t _ j

/-- and leaves in the result block the accumulator it ends with, over 2^24. -/
theorem result_last (c : Dev nD) (t : Fin cfg0.N) (h0 : ¬t.val % 64 = 0) (h1 : t.val % 64 = 63) (j : S1x1.Idx) :
    (outsAt0 m c t.val t.isLt).1 j = Ideal.div ((outsAt0 m c t.val t.isLt).2 j) (Ideal.ofBits .f32 0x4B800000#32) := by
  rw [outsAt0_C m c t h0 h1]
  dsimp only
  refine (congrFun (result_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (imgBlk m c t) (txtBlk m c t) (labBlk m c t) (outsAt0 m c (t.val - 1) (Nat.lt_of_le_of_lt (Nat.sub_le _ _) t.isLt)).2) j).trans ?_
  refine (mean_apply _ j).trans ?_
  exact congrArg (Ideal.div · (Ideal.ofBits .f32 0x4B800000#32))
    (congrFun (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (imgBlk m c t) (txtBlk m c t) (labBlk m c t) (outsAt0 m c (t.val - 1) (Nat.lt_of_le_of_lt (Nat.sub_le _ _) t.isLt)).2) j).symm

/-! ## The running sum -/

/-- After point n the accumulator holds the sum of the tile sums of points 0 to n. -/
theorem acc_eq (c : Dev nD) : ∀ (n : ℕ) (h : n < cfg0.N) (j : S1x1.Idx),
    (outsAt0 m c n h).2 j = ∑ s ∈ Finset.range (n + 1), tileSum (imgArr m c) (txtArr m c) (labArr m c) s
  | 0, h, j => by
    rw [Finset.sum_range_one]
    exact step_first m c ⟨0, h⟩ rfl (by dsimp only; omega) j
  | n + 1, h, j => by
    have hN : cfg0.N = 64 := N_0
    have h0 : ¬(⟨n + 1, h⟩ : Fin cfg0.N).val % 64 = 0 := by dsimp only; omega
    rw [Finset.sum_range_succ, ← acc_eq c n (Nat.lt_of_succ_lt h) j]
    by_cases h1 : (⟨n + 1, h⟩ : Fin cfg0.N).val % 64 = 63
    · exact step_last m c ⟨n + 1, h⟩ h0 h1 j
    · exact step_middle m c ⟨n + 1, h⟩ h0 h1 j

/-- So the last point's result is the mean loss over all pairs. -/
theorem result_eq (c : Dev nD) (t : Fin cfg0.N) (h1 : t.val % 64 = 63) (j : S1x1.Idx) :
    (outsAt0 m c t.val t.isLt).1 j = meanLoss (imgArr m c) (txtArr m c) (labArr m c) := by
  have hN : cfg0.N = 64 := N_0
  have ht : t.val = 63 := by have := t.isLt; omega
  rw [result_last m c t (by omega) h1 j, acc_eq m c t.val t.isLt j, ht]
  exact congrArg (Ideal.div · (Ideal.ofBits .f32 0x4B800000#32)) (sum_range_tileSum _ _ _)

end Cert.Contrastive.Grid

end
-- ==== Proof.KernelMean.lean ====
/-
  The kernel's run on the extended reals: its scalar result is the mean loss over all pairs.

  The 1 x 1 result array is written back once, after the last grid point, and that one block is the whole array; what
  the last point left in the block is the mean. The program then reshapes the 1 x 1 array to a scalar, which only
  renames its one entry.
-/
import proofs.«121585_j69415261438629_1_alg».proof.Proof.RunningSum
import Idealize.ShloMosaic.Lib.Pipeline.Value
import Idealize.ShloMosaic.Lib.StableHlo.Run
import Idealize.ShloMosaic.Lib.Tactic

noncomputable section

open scoped BigOperators

namespace Cert.Contrastive.Grid

open Idealize.ShloMosaic Idealize.ShloMosaic.TcCoe Idealize.ShloMosaic.ValueIdx Idealize.SL.Sem
open Idealize.ShloMosaic.Pipeline (Dat)
open Cert.KernelIdeal Cert.KernelIdeal.Gen Cert.Contrastive

variable (m : (ℓ : Loc nD τ sig) → Buf (Elt Ideal) ℓ) (ρ : Dev nD → PrngReg)

/-- The mean loss as the contents of the 1 x 1 result array. -/
abbrev meanArr (c : Dev nD) : Buf (Elt Ideal) ((c : Thread nD τ).loc main_v0) :=
  fun _ => meanLoss (imgArr m c) (txtArr m c) (labArr m c)

/-- The last grid point. -/
abbrev tLast : Fin cfg0.N := ⟨63, by rw [show cfg0.N = 64 from N_0]; decide⟩

/-- The result block never moves: it is block (0, 0) at every point. -/
theorem out_index : ∀ (t : Fin cfg0.N) (a : Fin 2), win0_3.index t a = 0 :=
  (by decide +kernel : ∀ (t : Fin grid0.N) (a : Fin 2), win0_3.index t a = 0)

/-- The one write-back, after the last point, writes the mean: the block is the whole array. -/
theorem flushed_eq (c : Dev nD) (t : Fin cfg0.N) (hf : (cfg0.win 3).flush t = true) :
    (dats m 0 c).flushed 3 t = ((cfg0.win 3).blk t).view.read (Elt Ideal) (meanArr m c) := by
  have h63 : t.val % 64 = 63 := (flush0_3 t).mp hf
  show (cfg0.win 3).cut (grid0.coords t) ((dats m 0 c).after 3 t) = _
  rw [after0_3]
  have hz' : (fun a => win0_3.index t a * main_v0.ty.shape.size a) = fun _ => 0 :=
    funext fun a => by rw [out_index t a, Nat.zero_mul]
  refine Eq.trans ?_ (Memref.read_access_unit_zero (Elt Ideal) main_v0 hz' (fun a => by rw [congrFun hz' a]; simp) (meanArr m c)).symm
  funext j
  exact result_eq m c t h63 j

/-- So the result array ends holding the mean. -/
theorem final_mean (c : Dev nD) : (dats m 0 c).arrAt 3 cfg0.N = meanArr m c :=
  (dats m 0 c).arrAt_eq_of_cover 3 (meanArr m c) (flushed_eq m c) fun i =>
    ⟨tLast, (flush0_3 tLast).mpr rfl, by
      show i ∈ ((View.whole main_v0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [out_index tLast 0, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [out_index tLast 1, show win0_3.xsize (grid0.coords tLast) 1 = 1 from by decide +kernel]; omega⟩

/-- The scalar the program returns: the reshape of the result array reads its one entry. -/
theorem tail_eq (c : Dev nD) :
    Pipeline.afterTail₀ cfgs (dats m) 0 (V0 m) [hostOps1] c main_v1 = fun _ => meanLoss (imgArr m c) (txtArr m c) (labArr m c) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = meanArr m c :=
    (Pipeline.withArrays_arr spec0 launch0.win.arr_inj c _ _ 3).trans (final_mean m c)
  rw [hw]
  rfl

/-- THE KERNEL'S RUN: every weakly fair execution terminates with the scalar result at the mean loss of the argument
    arrays, and the arguments unchanged. -/
theorem run : θ_run defs (onTc (τ := τ) (main (F := Ideal))) ⟨m, fun _ => 0, ρ⟩ fun r => ∀ c : Dev nD,
      r.2.mem ((c : Thread nD τ).loc main_v1) = (fun _ => meanLoss (imgArr m c) (txtArr m c) (labArr m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Contrastive.Grid

end
-- ==== Proof.RefMean.lean ====
/-
  The reference on the extended reals: entry (P, Q) of its loss matrix is the pair loss of image row P and text row Q
  under their label, and its result is the mean loss over all pairs.

  The reference forms the five row statistics as sums along the rows (each from a zero initial value), spreads them
  over the pair matrix by broadcasts, takes the inner products as a matrix product against the transposed texts, and
  then applies, entry by entry, the same arithmetic as the pair loss; the mean is the sum over the whole matrix (from a
  zero initial value) over 2^24.
-/
import proofs.«121585_j69415261438629_1_alg».proof.Proof.Gen.ReferenceIdeal.Read
import proofs.«121585_j69415261438629_1_alg».proof.Proof.PairLoss

noncomputable section

open scoped BigOperators

namespace Cert.Contrastive.Ref

open Idealize.ShloMosaic Idealize.ShloMosaic.ValueIdx Cert.ReferenceIdeal Cert.ReferenceIdeal.Read Cert.Contrastive

variable (P Q : Fin 4096) (k : Fin 768)

/-! Where the row statistics of the pair (P, Q) read the embeddings: row P of the images, row Q of the texts. -/

theorem sqImg_idx : idx_main_v1 (idx_main_v8 (idx_main_v10 (ix2 P Q))) k = ix2 P k :=
  funext fun a => Fin.ext (by match a with | ⟨0, _⟩ => rfl | ⟨1, _⟩ => rfl)
theorem sqTxt_idx : idx_main_v3 (idx_main_v9 (idx_main_v11 (ix2 P Q))) k = ix2 Q k :=
  funext fun a => Fin.ext (by match a with | ⟨0, _⟩ => rfl | ⟨1, _⟩ => rfl)
theorem sumImg_idx : idx_main_v6 (idx_main_v16 (idx_main_v18 (ix2 P Q))) k = ix2 P k :=
  funext fun a => Fin.ext (by match a with | ⟨0, _⟩ => rfl | ⟨1, _⟩ => rfl)
theorem sumTxt_idx : idx_main_v7 (idx_main_v17 (idx_main_v19 (ix2 P Q))) k = ix2 Q k :=
  funext fun a => Fin.ext (by match a with | ⟨0, _⟩ => rfl | ⟨1, _⟩ => rfl)
theorem dotImg_idx : lidx_main_v5 (ix2 P Q) k = ix2 P k :=
  funext fun a => Fin.ext (by match a with | ⟨0, _⟩ => rfl | ⟨1, _⟩ => rfl)
theorem dotTxt_idx : idx_main_v4 (ridx_main_v5 (ix2 P Q) k) = ix2 Q k :=
  funext fun a => Fin.ext (by match a with | ⟨0, _⟩ => rfl | ⟨1, _⟩ => rfl)

/-- Entry (P, Q) of the reference's loss matrix is the pair loss. -/
theorem pair_apply (a b : (⟨S4096x768, .f32⟩ : BufTy).Contents (Elt Ideal)) (g : (⟨S4096x4096, .i32⟩ : BufTy).Contents (Elt Ideal)) :
    val_main_v40 (F := Ideal) a b g (ix2 P Q) = pairLoss a b g P Q := by
  unfold pairLoss lossOf sqDist sqOf
  simp only [val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply, val_main_cst_4_apply, val_main_cst_5_apply, val_main_cst_6_apply, val_main_cst_7_apply, val_main_cst_8_apply, val_main_cst_9_apply,
    sqImg_idx, sqTxt_idx, sumImg_idx, sumTxt_idx, dotImg_idx, dotTxt_idx,
    Ideal.ofBits_def, Ideal.addf_def, Ideal.subf_def, Ideal.mulf_def, Ideal.maximumf_def, Ideal.hostUnary_sqrt_def,
    Ideal.ofBits_zero_f32, zero_add]
  rfl

/-- The reference's result is the mean loss over all pairs. -/
theorem mean_eq (a b : (⟨S4096x768, .f32⟩ : BufTy).Contents (Elt Ideal)) (g : (⟨S4096x4096, .i32⟩ : BufTy).Contents (Elt Ideal))
    (i : S_.Idx) : val_main_v42 (F := Ideal) a b g i = meanLoss a b g := by
  rw [val_main_v42_apply, val_main_v41_apply, sum_idx2]
  simp only [pair_apply]
  rw [val_main_cst_10_apply, val_main_cst_11_apply]
  unfold meanLoss
  show Ideal.div (Ideal.ofBits .f32 0x00000000#32 + _) _ = _
  rw [Ideal.ofBits_zero_f32, zero_add]
  rfl

end Cert.Contrastive.Ref

end
-- ==== Proof.lean ====
/-
  The contrastive loss over all 4096 x 4096 pairs of 768-wide image and text embeddings: a tiled kernel against the
  plain reference, equal on the extended reals.

  Both programs compute, for the pair (P, Q), the squared distance of image row P and text row Q expanded as
  |a|^2 + |b|^2 - 2 a.b + c1 (sum a - sum b) + c2 with the same single-precision words, its clamped square root d, the
  hinge max (2 - d) 0, and the loss ((1 - g) d) d + (g h) h under the pair's label g; and both return the sum of the
  losses over 2^24 (Proof/PairLoss.lean states this as one function of the three arrays).

  The reference forms the whole 4096 x 4096 loss matrix and sums it (Proof/RefMean.lean, over the generated reading of
  its run). The kernel visits 64 tiles of 512 x 512 pairs, adds each tile's loss sum to a one-entry accumulator that it
  resets at the first tile, and divides after the last (Proof/TileLoss.lean: a tile's arithmetic at an entry;
  Proof/TilePieces.lean: what one run of the body leaves; Proof/RunningSum.lean: the accumulator after point n is the
  sum of the first n + 1 tile sums; Proof/KernelMean.lean: the result array and the scalar read off it). The two agree
  because addition on the extended reals is commutative and associative and the tiles partition the pairs; no
  finiteness of the inputs is used. The kernel's idealization rewrote nothing, so it is preserved trivially.
-/
import proofs.«121585_j69415261438629_1_alg».proof.Defs
import proofs.«121585_j69415261438629_1_alg».proof.Proof.Gen.Kernel
import proofs.«121585_j69415261438629_1_alg».proof.Proof.Gen.Kernel.Frame
import proofs.«121585_j69415261438629_1_alg».proof.Proof.Gen.KernelIdeal
import proofs.«121585_j69415261438629_1_alg».proof.Proof.Gen.KernelIdeal.Frame
import proofs.«121585_j69415261438629_1_alg».proof.Proof.Gen.ReferenceIdeal
import proofs.«121585_j69415261438629_1_alg».proof.Proof.Gen.ReferenceIdeal.Run
import proofs.«121585_j69415261438629_1_alg».proof.Proof.Gen.ReferenceIdeal.Read
import proofs.«121585_j69415261438629_1_alg».proof.Proof.Gen.Pre_finite_inputs
import proofs.«121585_j69415261438629_1_alg».proof.Proof.KernelMean
import proofs.«121585_j69415261438629_1_alg».proof.Proof.RefMean
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the mean loss of the argument arrays. -/
theorem algebraic : Cert.algebraic_KernelIdeal_ReferenceIdeal := by
  intro m ρ m' ρ' _ hagree
  refine ⟨fun c => fun _ => Cert.Contrastive.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Contrastive.Grid.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2]
  exact funext fun i => Cert.Contrastive.Ref.mean_eq _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
